-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x128 : Shape := ⟨4, ![4, 16, 4096, 128]⟩
abbrev S_ : Shape := ⟨0, ![]⟩

class Facts : Prop where
  bcast_S_S4x16x4096x128 : S_.BroadcastsInDim S4x16x4096x128 (![] : Fin 0 → Fin S4x16x4096x128.rank)
  reducesTo_S4x16x4096x128_S_d0_1_2_3 : S4x16x4096x128.ReducesTo [0, 1, 2, 3] S_
  h_S_ : 0 < S_.numel

variable [Facts]

def fn {F : FTy → Type} [FloatOps F] (main_arg0 : FVec F S4x16x4096x128 .f32) (main_arg1 : FVec F S4x16x4096x128 .f32) (main_arg2 : FVec F S4x16x4096x128 .f32) : IVec S_ 1 :=
  let main_v0 : FVec F S4x16x4096x128 .f32 := Host.absf main_arg0
  let main_cst : FVec F S_ .f32 := constant S_ .f32 0x7F800000#32
  let main_v1 : FVec F S4x16x4096x128 .f32 := broadcastInDim S4x16x4096x128 ![] bcast_S_S4x16x4096x128 main_cst
  let main_v2 : IVec S4x16x4096x128 1 := cmpf .olt main_v0 main_v1
  let main_c : IVec S_ 1 := constantI S_ 1 1#1
  let main_v3 : IVec S_ 1 := (fun x v => Host.reduce IntOp.andi x v reducesTo_S4x16x4096x128_S_d0_1_2_3 h_S_) main_v2 main_c
  let main_v4 : FVec F S4x16x4096x128 .f32 := Host.absf main_arg1
  let main_cst_0 : FVec F S_ .f32 := constant S_ .f32 0x7F800000#32
  let main_v5 : FVec F S4x16x4096x128 .f32 := broadcastInDim S4x16x4096x128 ![] bcast_S_S4x16x4096x128 main_cst_0
  let main_v6 : IVec S4x16x4096x128 1 := cmpf .olt main_v4 main_v5
  let main_c_1 : IVec S_ 1 := constantI S_ 1 1#1
  let main_v7 : IVec S_ 1 := (fun x v => Host.reduce IntOp.andi x v reducesTo_S4x16x4096x128_S_d0_1_2_3 h_S_) main_v6 main_c_1
  let main_v8 : IVec S_ 1 := andi main_v3 main_v7
  let main_v9 : FVec F S4x16x4096x128 .f32 := Host.absf main_arg2
  let main_cst_2 : FVec F S_ .f32 := constant S_ .f32 0x7F800000#32
  let main_v10 : FVec F S4x16x4096x128 .f32 := broadcastInDim S4x16x4096x128 ![] bcast_S_S4x16x4096x128 main_cst_2
  let main_v11 : IVec S4x16x4096x128 1 := cmpf .olt main_v9 main_v10
  let main_c_3 : IVec S_ 1 := constantI S_ 1 1#1
  let main_v12 : IVec S_ 1 := (fun x v => Host.reduce IntOp.andi x v reducesTo_S4x16x4096x128_S_d0_1_2_3 h_S_) main_v11 main_c_3
  let main_v13 : IVec S_ 1 := andi main_v8 main_v12
  main_v13
-- ==== Kernel.lean ====
abbrev S4x16x4096x128 : Shape := ⟨4, ![4, 16, 4096, 128]⟩
abbrev S64x4096x128 : Shape := ⟨3, ![64, 4096, 128]⟩
abbrev S1x4096x128 : Shape := ⟨3, ![1, 4096, 128]⟩
abbrev S4096x128 : Shape := ⟨2, ![4096, 128]⟩
abbrev S128x128 : Shape := ⟨2, ![128, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x16x4096x128, .f32⟩
  | .hbm, ⟨1, _⟩ => ⟨S4x16x4096x128, .f32⟩
  | .hbm, ⟨2, _⟩ => ⟨S4x16x4096x128, .f32⟩
  | .hbm, ⟨3, _⟩ => ⟨S64x4096x128, .f32⟩
  | .hbm, ⟨4, _⟩ => ⟨S64x4096x128, .f32⟩
  | .hbm, ⟨5, _⟩ => ⟨S64x4096x128, .f32⟩
  | .hbm, ⟨6, _⟩ => ⟨S64x4096x128, .f32⟩
  | .hbm, ⟨7, _⟩ => ⟨S4x16x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | _, _ => ⟨S4x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x16x4096x128_S64x4096x128 : S4x16x4096x128.ShapeCasts S64x4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  shapeCasts_S4096x128_S1x4096x128 : S4096x128.ShapeCasts S1x4096x128
  shapeCasts_S64x4096x128_S4x16x4096x128 : S64x4096x128.ShapeCasts S4x16x4096x128
  dot_S4096x128_S4096x128_S128x128_0_0_1_1_n_n_wf : DotDims.WF S4096x128 S4096x128 S128x128 [0] [0] [1] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x4096x128.size a
  hwx0_0 : ∀ i : grid0.Coords, EltTy.bits .f32 = 32 ∨ (Rect.block (s := S64x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S64x4096x128.size a
  hwx0_1 : ∀ i : grid0.Coords, EltTy.bits .f32 = 32 ∨ (Rect.block (s := S64x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S64x4096x128.size a
  hwx0_2 : ∀ i : grid0.Coords, EltTy.bits .f32 = 32 ∨ (Rect.block (s := S64x4096x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S64x4096x128.size a
  hwx0_3 : ∀ i : grid0.Coords, EltTy.bits .f32 = 32 ∨ (Rect.block (s := S64x4096x128) S1x4096x128.size (cc0_transform_3 i) (hinb0_3 i)).WholeWords (EltTy.packing .f32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x128 : Shape := ⟨4, ![4, 16, 4096, 128]⟩
abbrev S4x16x128x128 : Shape := ⟨4, ![4, 16, 128, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x16x4096x128, .f32⟩
  | .hbm, ⟨1, _⟩ => ⟨S4x16x4096x128, .f32⟩
  | .hbm, ⟨2, _⟩ => ⟨S4x16x4096x128, .f32⟩
  | .hbm, ⟨3, _⟩ => ⟨S4x16x128x128, .f32⟩
  | .hbm, ⟨4, _⟩ => ⟨S4x16x4096x128, .f32⟩
  | _, _ => ⟨S4x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4x16x4096x128_S4x16x4096x128_S4x16x128x128_2_2_3_3_01_01_wf : DotDims.WF S4x16x4096x128 S4x16x4096x128 S4x16x128x128 [2] [2] [3] [3] [0, 1] [0, 1]
  dot_S4x16x4096x128_S4x16x128x128_S4x16x4096x128_3_2_2_3_01_01_wf : DotDims.WF S4x16x4096x128 S4x16x128x128 S4x16x4096x128 [3] [2] [2] [3] [0, 1] [0, 1]

variable [Facts₀]

def dot_S4x16x4096x128_S4x16x4096x128_S4x16x128x128_2_2_3_3_01_01 : DotDims S4x16x4096x128 S4x16x4096x128 S4x16x128x128 where
  lhsContracting := [2]
  rhsContracting := [2]
  lhsNonContracting := [3]
  rhsNonContracting := [3]
  lhsBatch := [0, 1]
  rhsBatch := [0, 1]
  wf := dot_S4x16x4096x128_S4x16x4096x128_S4x16x128x128_2_2_3_3_01_01_wf
def dot_S4x16x4096x128_S4x16x128x128_S4x16x4096x128_3_2_2_3_01_01 : DotDims S4x16x4096x128 S4x16x128x128 S4x16x4096x128 where
  lhsContracting := [3]
  rhsContracting := [2]
  lhsNonContracting := [2]
  rhsNonContracting := [3]
  lhsBatch := [0, 1]
  rhsBatch := [0, 1]
  wf := dot_S4x16x4096x128_S4x16x128x128_S4x16x4096x128_3_2_2_3_01_01_wf

class Facts : Prop extends Facts₀ where

variable [Facts]
-- ==== Proof.AttnSpec.lean ====
/-
  Unnormalised linear attention, head by head, on the extended reals:

      out[b, h, t, e] = Σ_d Q[b, h, t, d] · ( Σ_s K[b, h, s, d] · V[b, h, s, e] ).

  The inner sum is the feature-by-feature matrix Kᵀ·V of one head (a contraction over the 4096 tokens), the outer sum
  is the product of one query row with that matrix (a contraction over the 128 features). Both programs compute the
  two contractions in this order, so no sum is regrouped and no law that fails at the infinities is used.

  The same function is also written on the layout in which the batch axis (4) and the head axis (16) are merged into
  one axis of 64 heads, head number n = 16·b + h: a row-major reshape moves between the two layouts, and
  `attn_eq_merged` says that merging the three inputs, computing on 64 heads and splitting the result back is
  the function above.
-/
import Idealize.ShloMosaic.Lib.ValueIdx
import Idealize.ShloMosaic.Lib.Pipeline.Value

noncomputable section

open scoped BigOperators

namespace Cert.LinAttn

open Idealize.ShloMosaic Idealize.ShloMosaic.ValueIdx

/-- [batch, head, token, feature]. -/
abbrev Sbhtd : Shape := ⟨4, ![4, 16, 4096, 128]⟩
/-- [head number, token, feature], the batch and head axes merged. -/
abbrev Sntd : Shape := ⟨3, ![64, 4096, 128]⟩

/-- Linear attention on the four-axis layout: entry (b, h, t, e) is Σ_d Q[b,h,t,d] · Σ_s K[b,h,s,d] · V[b,h,s,e]. -/
def attn (Q K V : Sbhtd.Idx → EReal) : Sbhtd.Idx → EReal := fun i =>
  ∑ d : Fin 128, Q (ix4 (i 0 : Fin 4) (i 1 : Fin 16) (i 2 : Fin 4096) d)
    * ∑ s : Fin 4096, K (ix4 (i 0 : Fin 4) (i 1 : Fin 16) s d) * V (ix4 (i 0 : Fin 4) (i 1 : Fin 16) s (i 3 : Fin 128))

/-- The same on the merged layout: entry (n, t, e) is Σ_d q[n,t,d] · Σ_s k[n,s,d] · v[n,s,e]. -/
def attnMerged (q k v : Sntd.Idx → EReal) : Sntd.Idx → EReal := fun i =>
  ∑ d : Fin 128, q (ix3 (i 0 : Fin 64) (i 1 : Fin 4096) d)
    * ∑ s : Fin 4096, k (ix3 (i 0 : Fin 64) s d) * v (ix3 (i 0 : Fin 64) s (i 2 : Fin 128))

/-- Merging batch and head: entry (n, t, d) of the merged array is entry (b, h, t, d) of the four-axis one when
    n = 16·b + h, the two having the same row-major position. -/
theorem merge_apply (hc : Sbhtd.ShapeCasts Sntd) (X : Sbhtd.Idx → EReal) (n : Fin 64) (t : Fin 4096) (d : Fin 128)
    (b : Fin 4) (h : Fin 16) (hn : n.val = b.val * 16 + h.val) :
    shapeCast Sntd X hc (ix3 n t d) = X (ix4 b h t d) := by
  refine shapeCast_apply X hc _ _ ?_
  rw [Shape.rowMajor_val_four, Shape.rowMajor_val_three]
  show ((b.val * 16 + h.val) * 4096 + t.val) * 128 + d.val = (n.val * 4096 + t.val) * 128 + d.val
  rw [hn]

/-- Splitting the merged axis back: entry (b, h, t, e) of the four-axis array is entry (16·b + h, t, e) of the merged one. -/
theorem split_apply (hc : Sntd.ShapeCasts Sbhtd) (Y : Sntd.Idx → EReal) (b : Fin 4) (h : Fin 16) (t : Fin 4096) (e : Fin 128)
    (n : Fin 64) (hn : n.val = b.val * 16 + h.val) :
    shapeCast Sbhtd Y hc (ix4 b h t e) = Y (ix3 n t e) := by
  refine shapeCast_apply Y hc _ _ ?_
  rw [Shape.rowMajor_val_four, Shape.rowMajor_val_three]
  show (n.val * 4096 + t.val) * 128 + e.val = ((b.val * 16 + h.val) * 4096 + t.val) * 128 + e.val
  rw [hn]

/-- Merge the inputs, attend on 64 heads, split the result: that is attention on the four-axis layout. Head n = 16·b + h
    of each merged input is head (b, h) of the input, token by token and feature by feature, so the two double sums have
    equal terms. -/
theorem attn_eq_merged (h₁ : Sbhtd.ShapeCasts Sntd) (h₂ : Sntd.ShapeCasts Sbhtd) (Q K V : Sbhtd.Idx → EReal) :
    shapeCast Sbhtd (attnMerged (shapeCast Sntd Q h₁) (shapeCast Sntd K h₁) (shapeCast Sntd V h₁)) h₂ = attn Q K V := by
  funext i
  obtain ⟨b, h, t, e, rfl⟩ : ∃ (b : Fin 4) (h : Fin 16) (t : Fin 4096) (e : Fin 128), i = ix4 b h t e :=
    ⟨i 0, i 1, i 2, i 3, eq_ix4 i⟩
  have hb : b.val < 4 := b.isLt
  have hh : h.val < 16 := h.isLt
  rw [split_apply h₂ _ b h t e ⟨b.val * 16 + h.val, by omega⟩ rfl]
  unfold attnMerged attn
  refine Finset.sum_congr rfl fun d _ => ?_
  show shapeCast Sntd Q h₁ (ix3 (⟨b.val * 16 + h.val, by omega⟩ : Fin 64) t d)
      * ∑ s : Fin 4096, shapeCast Sntd K h₁ (ix3 (⟨b.val * 16 + h.val, by omega⟩ : Fin 64) s d)
          * shapeCast Sntd V h₁ (ix3 (⟨b.val * 16 + h.val, by omega⟩ : Fin 64) s e)
    = Q (ix4 b h t d) * ∑ s : Fin 4096, K (ix4 b h s d) * V (ix4 b h s e)
  rw [merge_apply h₁ Q _ t d b h rfl]
  congr 1
  refine Finset.sum_congr rfl fun s _ => ?_
  rw [merge_apply h₁ K _ s d b h rfl, merge_apply h₁ V _ s e b h rfl]

end Cert.LinAttn

end
-- ==== Proof.AttnPayload.lean ====
/-
  What one grid point computes. The body loads the point's three blocks — one head's keys, values and queries, each
  [1, 4096, 128] — drops the leading unit axis, and forms two matrix products into zero accumulators: first the
  feature-by-feature matrix KV[d, e] = Σ_s K[s, d] · V[s, e], contracting the token axis of both operands, then
  out[t, e] = Σ_d Q[t, d] · KV[d, e], contracting the feature axis of the queries with the first axis of KV. The
  narrowings to bf16 between them are the identity on the extended reals. The result gets its unit axis back and is
  stored over the whole output block. So entry (0, t, e) of what the point stores is

      Σ_d Q[0, t, d] · Σ_s K[0, s, d] · V[0, s, e].
-/
import proofs.«122632_j80161269613187_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.AttnValue

open Cert.KernelIdeal Cert.KernelIdeal.Gen Idealize.ShloMosaic Idealize.ShloMosaic.ValueIdx

/-! ## The operand indices of the first product, KV = Kᵀ·V (both operands contracted on their token axis) -/

theorem lhs_kv_0 (i : S128x128.Idx) (q : dot_S4096x128_S4096x128_S128x128_0_0_1_1_n_n.contr.Idx) :
    (dot_S4096x128_S4096x128_S128x128_0_0_1_1_n_n.lhsIdx i q 0).val = (q ⟨0, by decide⟩).val :=
  dot_S4096x128_S4096x128_S128x128_0_0_1_1_n_n.lhsIdx_val_of_single rfl i q
theorem lhs_kv_1 (i : S128x128.Idx) (q : dot_S4096x128_S4096x128_S128x128_0_0_1_1_n_n.contr.Idx) :
    (dot_S4096x128_S4096x128_S128x128_0_0_1_1_n_n.lhsIdx i q 1).val = (i 0).val := by
  unfold DotDims.lhsIdx
  rw [dif_neg (show ¬(1 : Fin S4096x128.rank) ∈ dot_S4096x128_S4096x128_S128x128_0_0_1_1_n_n.lhsBatch by decide), dif_pos (show (1 : Fin S4096x128.rank) ∈ dot_S4096x128_S4096x128_S128x128_0_0_1_1_n_n.lhsNonContracting by decide)]
  rfl
theorem rhs_kv_0 (i : S128x128.Idx) (q : dot_S4096x128_S4096x128_S128x128_0_0_1_1_n_n.contr.Idx) :
    (dot_S4096x128_S4096x128_S128x128_0_0_1_1_n_n.rhsIdx i q 0).val = (q ⟨0, by decide⟩).val :=
  dot_S4096x128_S4096x128_S128x128_0_0_1_1_n_n.rhsIdx_val_of_single rfl i q
theorem rhs_kv_1 (i : S128x128.Idx) (q : dot_S4096x128_S4096x128_S128x128_0_0_1_1_n_n.contr.Idx) :
    (dot_S4096x128_S4096x128_S128x128_0_0_1_1_n_n.rhsIdx i q 1).val = (i 1).val := by
  unfold DotDims.rhsIdx
  rw [dif_neg (show ¬(1 : Fin S4096x128.rank) ∈ dot_S4096x128_S4096x128_S128x128_0_0_1_1_n_n.rhsBatch by decide), dif_pos (show (1 : Fin S4096x128.rank) ∈ dot_S4096x128_S4096x128_S128x128_0_0_1_1_n_n.rhsNonContracting by decide)]
  rfl

/-- KV at (d, e) is the sum over the tokens s of K[s, d] · V[s, e]. -/
theorem kv_apply (k v : FVec Ideal S4096x128 .bf16) (d e : Fin 128) :
    FloatOps.matmul dot_S4096x128_S4096x128_S128x128_0_0_1_1_n_n none k v (constant S128x128 .f32 0x00000000#32) (ix2 d e)
      = ∑ s : Fin 4096, k (ix2 s d) * v (ix2 s e) := by
  rw [Ideal.matmul_constant_zero_apply, ← Equiv.sum_comp (contrEquiv1 dot_S4096x128_S4096x128_S128x128_0_0_1_1_n_n 4096 rfl rfl).symm]
  refine Finset.sum_congr rfl fun s _ => ?_
  have hs := contrEquiv1_symm_val dot_S4096x128_S4096x128_S128x128_0_0_1_1_n_n 4096 rfl rfl s
  have el : dot_S4096x128_S4096x128_S128x128_0_0_1_1_n_n.lhsIdx (ix2 d e) ((contrEquiv1 dot_S4096x128_S4096x128_S128x128_0_0_1_1_n_n 4096 rfl rfl).symm s) = ix2 s d := funext fun a => Fin.ext (by
    match a with
    | ⟨0, _⟩ => exact (lhs_kv_0 _ _).trans hs
    | ⟨1, _⟩ => exact lhs_kv_1 _ _)
  have er : dot_S4096x128_S4096x128_S128x128_0_0_1_1_n_n.rhsIdx (ix2 d e) ((contrEquiv1 dot_S4096x128_S4096x128_S128x128_0_0_1_1_n_n 4096 rfl rfl).symm s) = ix2 s e := funext fun a => Fin.ext (by
    match a with
    | ⟨0, _⟩ => exact (rhs_kv_0 _ _).trans hs
    | ⟨1, _⟩ => exact rhs_kv_1 _ _)
  rw [el, er]

/-! ## The operand indices of the second product, Q·KV (the queries' feature axis against KV's first axis) -/

theorem lhs_out_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_out_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_out_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_out_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Q·KV at (t, e) is the sum over the features d of Q[t, d] · KV[d, e]. -/
theorem qkv_apply (q : FVec Ideal S4096x128 .bf16) (kv : FVec Ideal S128x128 .bf16) (t : Fin 4096) (e : Fin 128) :
    FloatOps.matmul dot_S4096x128_S128x128_S4096x128_1_0_0_1_n_n none q kv (constant S4096x128 .f32 0x00000000#32) (ix2 t e)
      = ∑ d : Fin 128, q (ix2 t d) * kv (ix2 d e) := by
  rw [Ideal.matmul_constant_zero_apply, ← Equiv.sum_comp (contrEquiv1 dot_S4096x128_S128x128_S4096x128_1_0_0_1_n_n 128 rfl rfl).symm]
  refine Finset.sum_congr rfl fun d _ => ?_
  have hd := contrEquiv1_symm_val dot_S4096x128_S128x128_S4096x128_1_0_0_1_n_n 128 rfl rfl d
  have el : dot_S4096x128_S128x128_S4096x128_1_0_0_1_n_n.lhsIdx (ix2 t e) ((contrEquiv1 dot_S4096x128_S128x128_S4096x128_1_0_0_1_n_n 128 rfl rfl).symm d) = ix2 t d := funext fun a => Fin.ext (by
    match a with
    | ⟨0, _⟩ => exact lhs_out_0 _ _
    | ⟨1, _⟩ => exact (lhs_out_1 _ _).trans hd)
  have er : dot_S4096x128_S128x128_S4096x128_1_0_0_1_n_n.rhsIdx (ix2 t e) ((contrEquiv1 dot_S4096x128_S128x128_S4096x128_1_0_0_1_n_n 128 rfl rfl).symm d) = ix2 d e := funext fun a => Fin.ext (by
    match a with
    | ⟨0, _⟩ => exact (rhs_out_0 _ _).trans hd
    | ⟨1, _⟩ => exact rhs_out_1 _ _)
  rw [el, er]

/-! ## The unit axis of a block -/

/-- A [1, 4096, 128] block viewed as [4096, 128]: entry (s, d) is entry (0, s, d). -/
theorem dropUnit_apply (x : S1x4096x128.Idx → EReal) (s : Fin 4096) (d : Fin 128) :
    shapeCast S4096x128 x shapeCasts_S1x4096x128_S4096x128 (ix2 s d) = x (ix3 (0 : Fin 1) s d) := by
  refine shapeCast_apply x _ _ _ ?_
  rw [Shape.rowMajor_val_three, Shape.rowMajor_val_two]
  show ((0 : ℕ) * 4096 + s.val) * 128 + d.val = s.val * 128 + d.val
  omega

/-- A [4096, 128] value stored as a [1, 4096, 128] block: entry (z, t, e) is entry (t, e). -/
theorem addUnit_apply (y : S4096x128.Idx → EReal) (z : Fin 1) (t : Fin 4096) (e : Fin 128) :
    shapeCast S1x4096x128 y shapeCasts_S4096x128_S1x4096x128 (ix3 z t e) = y (ix2 t e) := by
  refine shapeCast_apply y _ _ _ ?_
  rw [Shape.rowMajor_val_three, Shape.rowMajor_val_two]
  show t.val * 128 + e.val = (z.val * 4096 + t.val) * 128 + e.val
  have hz : z.val < 1 := z.isLt
  omega

/-! ## The stored value -/

/-- Entry (z, t, e) of the value a point stores, from its key, value and query blocks. -/
theorem stored_apply (xk xv xq : Vec Ideal S1x4096x128 .f32) (z : Fin 1) (t : Fin 4096) (e : Fin 128) :
    k0_pay1 (F := Ideal) xk xv xq (ix3 z t e)
      = ∑ d : Fin 128, xq (ix3 (0 : Fin 1) t d) * ∑ s : Fin 4096, xk (ix3 (0 : Fin 1) s d) * xv (ix3 (0 : Fin 1) s e) := by
  unfold k0_pay1
  rw [addUnit_apply]
  simp only [matmul]
  rw [qkv_apply]
  refine Finset.sum_congr rfl fun d _ => ?_
  rw [truncf_apply, truncf_apply, dropUnit_apply, kv_apply]
  congr 1
  refine Finset.sum_congr rfl fun s _ => ?_
  rw [truncf_apply, truncf_apply, dropUnit_apply, dropUnit_apply]

end Cert.KernelIdeal.AttnValue

end
-- ==== Proof.AttnArray.lean ====
/-
  From the points to the whole program. The grid has 64 points, one per merged head: at point n every window's
  block is head n of its array, all 4096 tokens and 128 features of it. The point stores, over the whole of head n
  of the output, the attention of head n of the three inputs; the 64 blocks are the 64 heads, so together they fill
  the output array, which therefore ends at `attnMerged` of the three input arrays as the region finds them.
  Before the region the program merges the batch and head axes of its three arguments (three reshapes), after it
  it splits the result's head axis back (one reshape); by `attn_eq_merged` the program's result is `attn` of its
  arguments.
-/
import proofs.«122632_j80161269613187_1_alg».proof.Proof.Gen.KernelIdeal.Frame
import proofs.«122632_j80161269613187_1_alg».proof.Proof.AttnSpec
import proofs.«122632_j80161269613187_1_alg».proof.Proof.AttnPayload
import Idealize.ShloMosaic.Lib.StableHlo.Run

set_option maxRecDepth 16384

noncomputable section

open scoped BigOperators

namespace Cert.KernelIdeal.AttnValue

open Cert.KernelIdeal Cert.KernelIdeal.Gen Cert.LinAttn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds -/

/-- The merged queries, keys and values as the region finds them. -/
abbrev qArr (c : Dev nD) : Vec Ideal S64x4096x128 .f32 := V m c main_v0
abbrev kArr (c : Dev nD) : Vec Ideal S64x4096x128 .f32 := V m c main_v1
abbrev vArr (c : Dev nD) : Vec Ideal S64x4096x128 .f32 := V m c main_v2

/-- What the output array ends at: attention on the merged layout of those three. -/
abbrev outArr (c : Dev nD) : Vec Ideal S64x4096x128 .f32 := attnMerged (qArr m c) (kArr m c) (vArr m c)

/-! ## The blocks -/

theorem zero_offsets : (![0, 0, 0] : Fin 3 → Nat) = fun _ => 0 := funext fun a => by fin_cases a <;> rfl

/-- At point t every window's block index is (t, 0, 0): head t, from token 0 and feature 0. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Head n is some point's block index. -/
theorem head_point : ∀ n : Fin 64, ∃ t : Fin cfg0.N, t.val = n.val :=
  (by decide +kernel : ∀ n : Fin 64, ∃ t : Fin grid0.N, t.val = n.val)

theorem point_lt (t : Fin cfg0.N) : t.val < 64 := lt_of_lt_of_eq t.isLt N_0

/-- The query block at point t is head t of the merged queries. -/
theorem qblk_apply (c : Dev nD) (t : Fin cfg0.N) (r : Fin 4096) (d : Fin 128) :
    iblk m c 0 t (ix3 (0 : Fin 1) r d) = qArr m c (ix3 (⟨t.val, point_lt t⟩ : Fin 64) r d) := by
  obtain ⟨e0, e1, e2, -⟩ := block_index t
  show V m c main_v0 (((cfg0.win 0).blk t).view.emb (ix3 (0 : Fin 1) r d)) = V m c main_v0 (ix3 (⟨t.val, point_lt t⟩ : Fin 64) r d)
  congr 1
  funext a; apply Fin.ext
  match a with
  | ⟨0, _⟩ => show win0_0.index t (0 : Fin 3) * 1 + 1 * 0 = t.val; omega
  | ⟨1, _⟩ => show win0_0.index t (1 : Fin 3) * 4096 + 1 * r.val = r.val; omega
  | ⟨2, _⟩ => show win0_0.index t (2 : Fin 3) * 128 + 1 * d.val = d.val; omega

/-- The key block at point t is head t of the merged keys. -/
theorem kblk_apply (c : Dev nD) (t : Fin cfg0.N) (r : Fin 4096) (d : Fin 128) :
    iblk m c 1 t (ix3 (0 : Fin 1) r d) = kArr m c (ix3 (⟨t.val, point_lt t⟩ : Fin 64) r d) := by
  obtain ⟨-, -, -, e0, e1, e2, -⟩ := block_index t
  show V m c main_v1 (((cfg0.win 1).blk t).view.emb (ix3 (0 : Fin 1) r d)) = V m c main_v1 (ix3 (⟨t.val, point_lt t⟩ : Fin 64) r d)
  congr 1
  funext a; apply Fin.ext
  match a with
  | ⟨0, _⟩ => show win0_1.index t (0 : Fin 3) * 1 + 1 * 0 = t.val; omega
  | ⟨1, _⟩ => show win0_1.index t (1 : Fin 3) * 4096 + 1 * r.val = r.val; omega
  | ⟨2, _⟩ => show win0_1.index t (2 : Fin 3) * 128 + 1 * d.val = d.val; omega

/-- The value block at point t is head t of the merged values. -/
theorem vblk_apply (c : Dev nD) (t : Fin cfg0.N) (r : Fin 4096) (d : Fin 128) :
    iblk m c 2 t (ix3 (0 : Fin 1) r d) = vArr m c (ix3 (⟨t.val, point_lt t⟩ : Fin 64) r d) := by
  obtain ⟨-, -, -, -, -, -, e0, e1, e2, -⟩ := block_index t
  show V m c main_v2 (((cfg0.win 2).blk t).view.emb (ix3 (0 : Fin 1) r d)) = V m c main_v2 (ix3 (⟨t.val, point_lt t⟩ : Fin 64) r d)
  congr 1
  funext a; apply Fin.ext
  match a with
  | ⟨0, _⟩ => show win0_2.index t (0 : Fin 3) * 1 + 1 * 0 = t.val; omega
  | ⟨1, _⟩ => show win0_2.index t (1 : Fin 3) * 4096 + 1 * r.val = r.val; omega
  | ⟨2, _⟩ => show win0_2.index t (2 : Fin 3) * 128 + 1 * d.val = d.val; omega

/-- Entry (z, r, e) of the output block at point t sits at (t, r, e) of the output array. -/
theorem oblk_emb (t : Fin cfg0.N) (z : Fin 1) (r : Fin 4096) (e : Fin 128) :
    ((cfg0.win 3).blk t).view.emb (ix3 z r e) = (ix3 (⟨t.val, point_lt t⟩ : Fin 64) r e : S64x4096x128.Idx) := by
  obtain ⟨-, -, -, -, -, -, -, -, -, e0, e1, e2⟩ := block_index t
  have hz : z.val < 1 := z.isLt
  funext a; apply Fin.ext
  match a with
  | ⟨0, _⟩ => show win0_3.index t (0 : Fin 3) * 1 + 1 * z.val = t.val; omega
  | ⟨1, _⟩ => show win0_3.index t (1 : Fin 3) * 4096 + 1 * r.val = r.val; omega
  | ⟨2, _⟩ => show win0_3.index t (2 : Fin 3) * 128 + 1 * e.val = e.val; omega

/-- What point t writes back is head t of `outArr`. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold out0_3
  rw [View.canon_unit_zero zero_offsets]
  simp only [View.ld_unit_zero (S := S1x4096x128) zero_offsets]
  funext j
  obtain ⟨z, r, e, rfl⟩ : ∃ (z : Fin 1) (r : Fin 4096) (e : Fin 128), j = ix3 z r e := ⟨j 0, j 1, j 2, eq_ix3 j⟩
  show k0_pay1 (F := Ideal) (iblk m c 1 t) (iblk m c 2 t) (iblk m c 0 t) (ix3 z r e) = outArr m c (((cfg0.win 3).blk t).view.emb (ix3 z r e))
  rw [stored_apply, oblk_emb]
  show _ = ∑ d : Fin 128, qArr m c (ix3 (⟨t.val, point_lt t⟩ : Fin 64) r d)
      * ∑ s : Fin 4096, kArr m c (ix3 (⟨t.val, point_lt t⟩ : Fin 64) s d) * vArr m c (ix3 (⟨t.val, point_lt t⟩ : Fin 64) s e)
  refine Finset.sum_congr rfl fun d _ => ?_
  rw [qblk_apply]
  refine congrArg (fun x : EReal => qArr m c (ix3 (⟨t.val, point_lt t⟩ : Fin 64) r d) * x) ?_
  refine Finset.sum_congr rfl fun s _ => ?_
  rw [kblk_apply, vblk_apply]

/-- An index of the output array is in point t's block iff each coordinate is in the block's range on its axis. -/
theorem mem_oblk (t : Fin cfg0.N) (i : S64x4096x128.Idx) :
    i ∈ ((cfg0.win 3).blk t).view.set ↔ ∀ a : Fin 3, win0_3.index t a * S1x4096x128.size a ≤ (i a).val ∧ (i a).val < win0_3.index t a * S1x4096x128.size a + S1x4096x128.size a := by
  show i ∈ ((View.whole main_v3).slice (win0_3.rect t)).set ↔ _
  rw [View.set_slice_whole, Rect.mem_set_unit]
  exact Iff.rfl

/-- Every index of the output array is in the block of the point of its head. -/
theorem covered (i : S64x4096x128.Idx) : ∃ t : Fin cfg0.N, (cfg0.win 3).flush t = true ∧ i ∈ ((cfg0.win 3).blk t).view.set := by
  obtain ⟨t, ht⟩ := head_point (i 0)
  obtain ⟨-, -, -, -, -, -, -, -, -, e0, e1, e2⟩ := block_index t
  have h1 : (i 1).val < 4096 := (i 1).isLt
  have h2 : (i 2).val < 128 := (i 2).isLt
  refine ⟨t, flush0_3 t, ?_⟩
  rw [mem_oblk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- The output array after the run. -/
theorem out_final (c : Dev nD) : (dats m 0 c).arrAt 3 cfg0.N = outArr m c :=
  (dats m 0 c).arrAt_eq_of_cover 3 (outArr m c) (fun t _ => flushed_eq m c t) covered

end Cert.KernelIdeal.AttnValue

end
-- ==== Proof.AttnRun.lean ====
/-
  The idealized kernel program's run, read: its result array ends at `attn` of its three arguments, which end
  unchanged. The three reshapes before the region hand it the arguments with batch and head merged; the region leaves
  `attnMerged` of those in the output array; the reshape after it splits the head axis of that array back.
-/
import proofs.«122632_j80161269613187_1_alg».proof.Proof.AttnArray

set_option maxRecDepth 16384

noncomputable section

namespace Cert.KernelIdeal.AttnValue

open Cert.KernelIdeal Cert.KernelIdeal.Gen Cert.LinAttn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Before the region: the arguments with batch and head merged -/

theorem qArr_eq (c : Dev nD) :
    qArr m c = shapeCast S64x4096x128 (m ((c : Thread nD τ).loc main_arg0)) shapeCasts_S4x16x4096x128_S64x4096x128 := by
  show StableHlo.after hostOps0 (fun b => m (c, b)) (Proc.devRef .tc main_v0) = _
  after_results
  rfl

theorem kArr_eq (c : Dev nD) :
    kArr m c = shapeCast S64x4096x128 (m ((c : Thread nD τ).loc main_arg1)) shapeCasts_S4x16x4096x128_S64x4096x128 := by
  show StableHlo.after hostOps0 (fun b => m (c, b)) (Proc.devRef .tc main_v1) = _
  after_results
  rfl

theorem vArr_eq (c : Dev nD) :
    vArr m c = shapeCast S64x4096x128 (m ((c : Thread nD τ).loc main_arg2)) shapeCasts_S4x16x4096x128_S64x4096x128 := by
  show StableHlo.after hostOps0 (fun b => m (c, b)) (Proc.devRef .tc main_v2) = _
  after_results
  rfl

/-! ## After the region: the output array with its head axis split -/

theorem result_eq (c : Dev nD) :
    Pipeline.afterTail₀ cfgs (dats m) 0 (V0 m) [hostOps1] c main_v4
      = attn (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = outArr m c :=
    (Pipeline.withArrays_arr spec0 launch0.win.arr_inj c (V0 m c) (fun w => (dats m 0 c).arrAt w cfg0.N) 3).trans (out_final m c)
  show shapeCast S4x16x4096x128
      (Pipeline.withArrays (cfgs 0).spec c (V0 m c) (fun w => (dats m 0 c).arrAt w (cfgs 0).N) (Proc.devRef .tc main_v3))
      shapeCasts_S64x4096x128_S4x16x4096x128 = _
  rw [hw]
  show shapeCast S4x16x4096x128 (attnMerged (qArr m c) (kArr m c) (vArr m c)) shapeCasts_S64x4096x128_S4x16x4096x128 = _
  rw [qArr_eq, kArr_eq, vArr_eq]
  exact attn_eq_merged _ _ _ _ _

/-! ## The run -/

/-- Every weakly fair execution of the idealized kernel program terminates with its result at `attn` of the arguments
    and the arguments unchanged: the generated frame run, its post read at the result buffer (which the region does
    not stage, so it ends as the reshape after the region leaves it) and at the arguments. -/
theorem run : θ_run defs (onTc (τ := τ) (main (F := Ideal))) ⟨m, fun _ => 0, ρ⟩ fun r => ∀ c : Dev nD,
      r.2.mem ((c.tc : Thread nD τ).loc main_v4)
        = attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.AttnValue

end
-- ==== Proof.AttnReference.lean ====
/-
  The reference computes the same two contractions with two batched products over (batch, head): first
  KV[b, h, d, e] = Σ_s K[b, h, s, d] · V[b, h, s, e], contracting the token axis, then
  out[b, h, t, e] = Σ_d Q[b, h, t, d] · KV[b, h, d, e], contracting the queries' feature axis with KV's third axis.
  Read at an index, the second product's operands sit at (b, h, t, d) and (b, h, d, e), and the first product's, at
  that (b, h, d, e), at (b, h, s, d) and (b, h, s, e): term for term the double sum `attn`.
-/
import proofs.«122632_j80161269613187_1_alg».proof.Proof.Gen.ReferenceIdeal.Read
import proofs.«122632_j80161269613187_1_alg».proof.Proof.AttnSpec

noncomputable section

open scoped BigOperators

namespace Cert.ReferenceIdeal.AttnValue

open Cert.ReferenceIdeal Cert.ReferenceIdeal.Read Cert.LinAttn Idealize.ShloMosaic Idealize.ShloMosaic.ValueIdx

/-- The query's index in the second product. -/
theorem query_index (i : S4x16x4096x128.Idx) (d : Fin 128) :
    lidx_main_v1 i d = ix4 (i 0 : Fin 4) (i 1 : Fin 16) (i 2 : Fin 4096) d :=
  funext fun a => Fin.ext (by match a with | ⟨0, _⟩ => rfl | ⟨1, _⟩ => rfl | ⟨2, _⟩ => rfl | ⟨3, _⟩ => rfl)

/-- The key's index in the first product, at the entry of KV the second product reads. -/
theorem key_index (i : S4x16x4096x128.Idx) (d : Fin 128) (s : Fin 4096) :
    lidx_main_v0 (ridx_main_v1 i d) s = ix4 (i 0 : Fin 4) (i 1 : Fin 16) s d :=
  funext fun a => Fin.ext (by match a with | ⟨0, _⟩ => rfl | ⟨1, _⟩ => rfl | ⟨2, _⟩ => rfl | ⟨3, _⟩ => rfl)

/-- The value's index there. -/
theorem value_index (i : S4x16x4096x128.Idx) (d : Fin 128) (s : Fin 4096) :
    ridx_main_v0 (ridx_main_v1 i d) s = ix4 (i 0 : Fin 4) (i 1 : Fin 16) s (i 3 : Fin 128) :=
  funext fun a => Fin.ext (by match a with | ⟨0, _⟩ => rfl | ⟨1, _⟩ => rfl | ⟨2, _⟩ => rfl | ⟨3, _⟩ => rfl)

/-- The reference's result is `attn` of its arguments. -/
theorem reference_eq (Q K V : (⟨S4x16x4096x128, .f32⟩ : BufTy).Contents (Elt Ideal)) :
    val_main_v1 (F := Ideal) Q K V = attn Q K V := by
  funext i
  rw [val_main_v1_apply]
  unfold attn
  refine Finset.sum_congr rfl fun d _ => ?_
  rw [val_main_v0_apply, query_index]
  refine congrArg (fun x : EReal => Q (ix4 (i 0 : Fin 4) (i 1 : Fin 16) (i 2 : Fin 4096) d) * x) ?_
  refine Finset.sum_congr rfl fun s _ => ?_
  rw [key_index, value_index]
  rfl

end Cert.ReferenceIdeal.AttnValue

end
-- ==== Proof.lean ====
/-
  Linear attention without normalisation: out = Q · (Kᵀ · V), head by head, for 4 × 16 heads of 4096 tokens and 128
  features,

      out[b, h, t, e] = Σ_d Q[b, h, t, d] · ( Σ_s K[b, h, s, d] · V[b, h, s, e] ).

  The kernel program merges batch and head into one axis of 64, gives each of its 64 grid points one head — whose
  body forms Kᵀ·V and then Q·(Kᵀ·V), two matrix products into zero accumulators with narrowings to bf16 that are the
  identity on the extended reals — and splits the head axis of the result back. The reference forms the same two
  contractions with two batched products. On the extended reals both are the double sum above, with the sums in the
  same order and grouping, so the equality uses no law that fails at the infinities and the precondition is never
  opened. `AttnSpec` states the function on both layouts and relates them across the reshapes; `AttnPayload` reads one
  point's stored value at an index; `AttnArray` assembles the 64 heads into the output array; `AttnRun` carries that
  through the reshapes around the region; `AttnReference` reads the reference's result at an index.
  The three frames are the generated ones (the reference's is its generated run with the result dropped), and the
  idealization rewrote no operation, so there is nothing to preserve.
-/
import proofs.«122632_j80161269613187_1_alg».proof.Defs
import proofs.«122632_j80161269613187_1_alg».proof.Proof.Gen.Kernel
import proofs.«122632_j80161269613187_1_alg».proof.Proof.Gen.Kernel.Skeleton
import proofs.«122632_j80161269613187_1_alg».proof.Proof.Gen.Kernel.Launch
import proofs.«122632_j80161269613187_1_alg».proof.Proof.Gen.Kernel.Points
import proofs.«122632_j80161269613187_1_alg».proof.Proof.Gen.Kernel.Frame
import proofs.«122632_j80161269613187_1_alg».proof.Proof.Gen.KernelIdeal
import proofs.«122632_j80161269613187_1_alg».proof.Proof.Gen.KernelIdeal.Skeleton
import proofs.«122632_j80161269613187_1_alg».proof.Proof.Gen.KernelIdeal.Launch
import proofs.«122632_j80161269613187_1_alg».proof.Proof.Gen.KernelIdeal.Points
import proofs.«122632_j80161269613187_1_alg».proof.Proof.Gen.KernelIdeal.Frame
import proofs.«122632_j80161269613187_1_alg».proof.Proof.Gen.ReferenceIdeal
import proofs.«122632_j80161269613187_1_alg».proof.Proof.Gen.Pre_finite_inputs
import proofs.«122632_j80161269613187_1_alg».proof.Proof.Gen.ReferenceIdeal.Run
import proofs.«122632_j80161269613187_1_alg».proof.Proof.Gen.ReferenceIdeal.Read
import proofs.«122632_j80161269613187_1_alg».proof.Proof.AttnRun
import proofs.«122632_j80161269613187_1_alg».proof.Proof.AttnReference
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as they were. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories that agree on Q, K and V both programs end with their result at `attn Q K V`. -/
theorem algebraic : Cert.algebraic_KernelIdeal_ReferenceIdeal := by
  intro m ρ m' ρ' _ hagree
  refine ⟨fun c => Cert.LinAttn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.AttnValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.AttnValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
